-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x8192 : Shape := ⟨2, ![8192, 8192]⟩
abbrev S64x8192x2 : Shape := ⟨3, ![64, 8192, 2]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S64x8192x2 : S_.BroadcastsInDim S64x8192x2 (![] : Fin 0 → Fin S64x8192x2.rank)
  reducesTo_S64x8192x2_S_d0_1_2 : S64x8192x2.ReducesTo [0, 1, 2] S_

variable [Facts]

def fn {F : FTy → Type} [FloatOps F] (main_arg0 : FVec F S64x8192 .f32) (main_arg1 : IVec S8192x8192 32) (main_arg2 : FVec F S64x8192x2 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x8192x2 .f32 := Host.absf main_arg2
  let main_cst_0 : FVec F S_ .f32 := constant S_ .f32 0x7F800000#32
  let main_v5 : FVec F S64x8192x2 .f32 := broadcastInDim S64x8192x2 ![] bcast_S_S64x8192x2 main_cst_0
  let main_v6 : IVec S64x8192x2 1 := cmpf .olt main_v4 main_v5
  let main_c_1 : IVec S_ 1 := constantI S_ 1 1#1
  let main_v7 : IVec S_ 1 := (fun x v => Host.reduce IntOp.andi x v reducesTo_S64x8192x2_S_d0_1_2 h_S_) main_v6 main_c_1
  let main_v8 : IVec S_ 1 := andi main_v3 main_v7
  main_v8
-- ==== Kernel.lean ====
abbrev S64x8192 : Shape := ⟨2, ![64, 8192]⟩
abbrev S8192x8192 : Shape := ⟨2, ![8192, 8192]⟩
abbrev S64x8192x2 : Shape := ⟨3, ![64, 8192, 2]⟩
abbrev S256x8192 : Shape := ⟨2, ![256, 8192]⟩
abbrev S64x256x2 : Shape := ⟨3, ![64, 256, 2]⟩
abbrev S64x256 : Shape := ⟨2, ![64, 256]⟩
abbrev S64x256x1 : Shape := ⟨3, ![64, 256, 1]⟩
abbrev S256x64 : Shape := ⟨2, ![256, 64]⟩
abbrev S256x64x128 : Shape := ⟨3, ![256, 64, 128]⟩
abbrev S256x64x1 : Shape := ⟨3, ![256, 64, 1]⟩

abbrev nBuf : Space → Nat
  | .hbm => 4
  | .vmem => 7
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S64x8192x2, .f32⟩
  | .hbm, ⟨3, _⟩ => ⟨S64x8192, .f32⟩
  | .local _ .vmem, ⟨0, _⟩ => ⟨S64x8192, .f32⟩
  | .local _ .vmem, ⟨1, _⟩ => ⟨S256x8192, .i32⟩
  | .local _ .vmem, ⟨2, _⟩ => ⟨S256x8192, .i32⟩
  | .local _ .vmem, ⟨3, _⟩ => ⟨S64x256x2, .f32⟩
  | .local _ .vmem, ⟨4, _⟩ => ⟨S64x256x2, .f32⟩
  | .local _ .vmem, ⟨5, _⟩ => ⟨S64x256, .f32⟩
  | .local _ .vmem, ⟨6, _⟩ => ⟨S64x256, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x256x2_S64x256x2_0_0_0 : ∀ a, (![0, 0, 0] : Fin 3 → Nat) a + S64x256x2.size a ≤ S64x256x2.size a
  h_S64x256x2 : 0 < S64x256x2.numel
  slices_S64x256x2_o0_0_0_S64x256x1 : S64x256x2.Slices ![0, 0, 0] S64x256x1
  shapeCasts_S64x256x1_S64x256 : S64x256x1.ShapeCasts S64x256
  slices_S64x256x2_o0_0_1_S64x256x1 : S64x256x2.Slices ![0, 0, 1] S64x256x1
  transposes_S64x256_p1_0_S256x64 : S64x256.Transposes [1, 0] S256x64
  inb_S256x8192_S256x8192_0_0 : ∀ a, (![0, 0] : Fin 2 → Nat) a + S256x8192.size a ≤ S256x8192.size a
  h_S256x8192 : 0 < S256x8192.numel
  shapeCasts_S256x8192_S256x64x128 : S256x8192.ShapeCasts S256x64x128
  shapeCasts_S256x64_S256x64x1 : S256x64.ShapeCasts S256x64x1
  broadcasts_S256x64x1_S256x64x128 : S256x64x1.Broadcasts S256x64x128
  shapeCasts_S256x64x128_S256x8192 : S256x64x128.ShapeCasts S256x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  inb_S64x256_S64x256_0_0 : ∀ a, (![0, 0] : Fin 2 → Nat) a + S64x256.size a ≤ S64x256.size a
  h_S64x256 : 0 < S64x256.numel
  dot_S64x8192_S256x8192_S64x256_1_1_0_0_n_n_wf : DotDims.WF S64x8192 S256x8192 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .f32 = 32 ∨ (Rect.block (s := S64x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .i32 = 32 ∨ (Rect.block (s := S8192x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256x2.size a ≤ S64x8192x2.size a
  hwx0_2 : ∀ i : grid0.Coords, EltTy.bits .f32 = 32 ∨ (Rect.block (s := S64x8192x2) S64x256x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x8192.size a
  hwx0_3 : ∀ i : grid0.Coords, EltTy.bits .f32 = 32 ∨ (Rect.block (s := S64x8192) S64x256.size (cc0_transform_3 i) (hinb0_3 i)).WholeWords (EltTy.packing .f32)

variable [Facts₀]

def dot_S64x8192_S256x8192_S64x256_1_1_0_0_n_n : DotDims S64x8192 S256x8192 S64x256 where
  lhsContracting := [1]
  rhsContracting := [1]
  lhsNonContracting := [0]
  rhsNonContracting := [0]
  lhsBatch := []
  rhsBatch := []
  wf := dot_S64x8192_S256x8192_S64x256_1_1_0_0_n_n_wf

abbrev win0_0 : Pipeline.Window sig grid0 :=
  Pipeline.Window.ofSpec (Memref.whole main_arg0) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x8192 : Shape := ⟨2, ![64, 8192]⟩
abbrev S8192x8192 : Shape := ⟨2, ![8192, 8192]⟩
abbrev S64x8192x2 : Shape := ⟨3, ![64, 8192, 2]⟩
abbrev S8192x64x128 : Shape := ⟨3, ![8192, 64, 128]⟩
abbrev S64x8192x1 : Shape := ⟨3, ![64, 8192, 1]⟩
abbrev S8192x64 : Shape := ⟨2, ![8192, 64]⟩
abbrev S8192x64x1 : Shape := ⟨3, ![8192, 64, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S64x8192x2, .f32⟩
  | .hbm, ⟨3, _⟩ => ⟨S8192x64x128, .i32⟩
  | .hbm, ⟨4, _⟩ => ⟨S8192x64x128, .f32⟩
  | .hbm, ⟨5, _⟩ => ⟨S64x8192x1, .f32⟩
  | .hbm, ⟨6, _⟩ => ⟨S64x8192, .f32⟩
  | .hbm, ⟨7, _⟩ => ⟨S8192x64, .f32⟩
  | .hbm, ⟨8, _⟩ => ⟨S8192x64x1, .f32⟩
  | .hbm, ⟨9, _⟩ => ⟨S64x8192x1, .f32⟩
  | .hbm, ⟨10, _⟩ => ⟨S64x8192, .f32⟩
  | .hbm, ⟨11, _⟩ => ⟨S8192x64, .f32⟩
  | .hbm, ⟨12, _⟩ => ⟨S8192x64x1, .f32⟩
  | .hbm, ⟨13, _⟩ => ⟨S_, .f32⟩
  | .hbm, ⟨14, _⟩ => ⟨S8192x64x128, .f32⟩
  | .hbm, ⟨15, _⟩ => ⟨S8192x64x128, .f32⟩
  | .hbm, ⟨16, _⟩ => ⟨S8192x64x128, .f32⟩
  | .hbm, ⟨17, _⟩ => ⟨S8192x64x128, .f32⟩
  | .hbm, ⟨18, _⟩ => ⟨S8192x64x128, .f32⟩
  | .hbm, ⟨19, _⟩ => ⟨S8192x64x128, .f32⟩
  | .hbm, ⟨20, _⟩ => ⟨S8192x8192, .f32⟩
  | .hbm, ⟨21, _⟩ => ⟨S8192x8192, .f32⟩
  | .hbm, ⟨22, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  shapeCasts_S8192x8192_S8192x64x128 : S8192x8192.ShapeCasts S8192x64x128
  slices_S64x8192x2_S64x8192x1_0_0_0 : S64x8192x2.Slices ![0, 0, 0] S64x8192x1
  shapeCasts_S64x8192x1_S64x8192 : S64x8192x1.ShapeCasts S64x8192
  transposes_S64x8192_S8192x64_1_0 : S64x8192.Transposes [1, 0] S8192x64
  bcast_S8192x64_S8192x64x1_0_1 : S8192x64.BroadcastsInDim S8192x64x1 (![0, 1] : Fin 2 → Fin S8192x64x1.rank)
  slices_S64x8192x2_S64x8192x1_0_0_1 : S64x8192x2.Slices ![0, 0, 1] S64x8192x1
  bcast_S_S8192x64x128 : S_.BroadcastsInDim S8192x64x128 (![] : Fin 0 → Fin S8192x64x128.rank)
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192
  transposes_S8192x8192_S8192x8192_1_0 : S8192x8192.Transposes [1, 0] S8192x8192
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.Dequant.lean ====
/-
  The function both programs compute, stated once and away from either program.

  A weight matrix of 8192 output features by 8192 input features is stored as 4-bit codes (held in 32-bit
  integers), quantized in groups of 128 consecutive input features: the 64 groups of an output feature each
  have their own scale and zero point, kept in an array of shape [64, 8192, 2] (group, output feature, then
  scale at 0 and zero point at 1). The weight at output feature `n` and input feature `k` is
      (code(n, k) - 8) * scale(k / 128, n) + zero(k / 128, n),
  and the result is the activations times the transposed weights:
      out(r, n) = sum over k of x(r, k) * weight(n, k).
  Everything is read on the extended reals: the integer code is the integer it denotes, 8 is the real its
  word denotes, and the sum is the finite sum over all 8192 input features (no order is attached to it).
-/
import Idealize.ShloMosaic.PureOps.Ideal
import Idealize.ShloMosaic.Lib.ValueIdx

noncomputable section

open scoped BigOperators

namespace Cert.Woq

open Idealize.ShloMosaic Idealize.ShloMosaic.ValueIdx

/-- The quantization group of an input feature: 128 consecutive features share one scale and one zero point. -/
def grp (k : Fin 8192) : Fin 64 := ⟨k.val / 128, by have := k.isLt; omega⟩

/-- The position of an input feature inside its group. -/
def lane (k : Fin 8192) : Fin 128 := ⟨k.val % 128, Nat.mod_lt _ (by decide)⟩

theorem grp_val (k : Fin 8192) : (grp k).val = k.val / 128 := rfl
theorem lane_val (k : Fin 8192) : (lane k).val = k.val % 128 := rfl

/-- One dequantized weight from its integer code `q`, its group's scale `s` and zero point `z`: the code read as
    a signed integer, less the midpoint 8 of the 4-bit range, times the scale, plus the zero point. -/
def deq (q : BitVec 32) (s z : Ideal .f32) : Ideal .f32 :=
  (FloatOps.sitofp (F := Ideal) .f32 q - Ideal.ofBits .f32 0x41000000#32) * s + z

/-- The dequantized weight at output feature `n` and input feature `k`, from the whole arrays of codes and of
    (scale, zero point) pairs. -/
def weight (q : IVec ⟨2, ![8192, 8192]⟩ 32) (sz : FVec Ideal ⟨3, ![64, 8192, 2]⟩ .f32) (n k : Fin 8192) : Ideal .f32 :=
  deq (q (ix2 n k)) (sz (ix3 (grp k) n (0 : Fin 2))) (sz (ix3 (grp k) n (1 : Fin 2)))

/-- One entry of the result: row `r` of the activations against the dequantized weights of output feature `n`. -/
def resultAt (x : FVec Ideal ⟨2, ![64, 8192]⟩ .f32) (q : IVec ⟨2, ![8192, 8192]⟩ 32) (sz : FVec Ideal ⟨3, ![64, 8192, 2]⟩ .f32)
    (r : Fin 64) (n : Fin 8192) : Ideal .f32 :=
  ∑ k : Fin 8192, x (ix2 r k) * weight q sz n k

/-- The whole result array. -/
def result (x : FVec Ideal ⟨2, ![64, 8192]⟩ .f32) (q : IVec ⟨2, ![8192, 8192]⟩ 32) (sz : FVec Ideal ⟨3, ![64, 8192, 2]⟩ .f32) :
    FVec Ideal ⟨2, ![64, 8192]⟩ .f32 :=
  fun i => resultAt x q sz ⟨(i 0).val, (i 0).isLt⟩ ⟨(i 1).val, (i 1).isLt⟩

theorem result_ix2 (x : FVec Ideal ⟨2, ![64, 8192]⟩ .f32) (q : IVec ⟨2, ![8192, 8192]⟩ 32) (sz : FVec Ideal ⟨3, ![64, 8192, 2]⟩ .f32)
    (r : Fin 64) (n : Fin 8192) : result x q sz (ix2 r n) = resultAt x q sz r n := rfl

/-- An entry of the result depends on its index only through the two coordinates. -/
theorem result_of_coords (x : FVec Ideal ⟨2, ![64, 8192]⟩ .f32) (q : IVec ⟨2, ![8192, 8192]⟩ 32) (sz : FVec Ideal ⟨3, ![64, 8192, 2]⟩ .f32)
    (i : (⟨2, ![64, 8192]⟩ : Shape).Idx) (r : Fin 64) (n : Fin 8192) (h0 : (i 0).val = r.val) (h1 : (i 1).val = n.val) :
    result x q sz i = resultAt x q sz r n := by
  unfold result
  congr 1 <;> exact Fin.ext (by assumption)

end Cert.Woq

end
-- ==== Proof.KernelDequant.lean ====
/-
  What the kernel body stores, read at an index.

  At each of the 32 grid points the body loads the whole activations [64, 8192], the codes of 256 consecutive output
  features [256, 8192] and their (scale, zero point) pairs [64, 256, 2]; it slices scales and zero points apart,
  transposes them to [256, 64], regroups the codes to [256, 64, 128], forms (code - 8) * scale + zero with the
  parameters spread along each group, flattens back to [256, 8192] and multiplies the activations by the transpose
  of that tile into a zero accumulator. Each layout step renames coordinates; the product is a sum over the input
  features. This file reads the stored value at (r, j): the sum over k of x(r, k) * tile(j, k).
-/
import proofs.«163755_j15668040696350_1_alg».proof.Proof.Gen.KernelIdeal.Skeleton
import proofs.«163755_j15668040696350_1_alg».proof.Proof.Dequant
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Woq.Kern

open Cert.KernelIdeal Cert.KernelIdeal.Gen Idealize.ShloMosaic Idealize.ShloMosaic.ValueIdx Cert.Woq

/-! ## The weight tile of one grid point

At a grid point the body holds a block of 256 consecutive output features: their codes, [256, 8192], and their
(scale, zero point) pairs for all 64 groups, [64, 256, 2]. The weight it forms for row `j` of the block and
input feature `k` is the dequantization of code (j, k) with the parameters at (k / 128, j, ·). -/

/-- The dequantized weight of row `j` of a point's block at input feature `k`. -/
def tile (sb : Vec Ideal S64x256x2 .f32) (qb : Vec Ideal S256x8192 .i32) (j : Fin 256) (k : Fin 8192) : Ideal .f32 :=
  deq (qb (ix2 j k)) (sb (ix3 (grp k) j (0 : Fin 2))) (sb (ix3 (grp k) j (1 : Fin 2)))

/-! ## The body's layout steps, each read at explicit coordinates -/

section Layout
variable {α : Type}

/-- Grouped weights [256, 64, 128] flattened to [256, 8192]: entry (j, k) is entry (j, k / 128, k % 128). -/
theorem flatten_at (w : S256x64x128.Idx → α) (h : S256x64x128.ShapeCasts S256x8192) (j : Fin 256) (k : Fin 8192) :
    shapeCast S256x8192 w h (ix2 j k) = w (ix3 j (grp k) (lane k)) :=
  shapeCast_apply w h (ix2 j k) (ix3 j (grp k) (lane k)) (by
    rewrite [Shape.rowMajor_val_three, Shape.rowMajor_val_two]
    have hj := j.isLt; have hk := k.isLt
    show (j.val * 64 + k.val / 128) * 128 + k.val % 128 = j.val * 8192 + k.val; omega)

/-- Codes [256, 8192] grouped to [256, 64, 128]: entry (j, k / 128, k % 128) is entry (j, k). -/
theorem group_at (v : S256x8192.Idx → α) (h : S256x8192.ShapeCasts S256x64x128) (j : Fin 256) (k : Fin 8192) :
    shapeCast S256x64x128 v h (ix3 j (grp k) (lane k)) = v (ix2 j k) :=
  shapeCast_apply v h (ix3 j (grp k) (lane k)) (ix2 j k) (by
    rewrite [Shape.rowMajor_val_three, Shape.rowMajor_val_two]
    have hj := j.isLt; have hk := k.isLt
    show j.val * 8192 + k.val = (j.val * 64 + k.val / 128) * 128 + k.val % 128; omega)

/-- A per-group parameter [256, 64], given a trailing unit axis and spread over the 128 positions of each group:
    entry (j, g, l) is the parameter of row `j` and group `g`, whatever `l`. -/
theorem spread_at (u : S256x64.Idx → α) (h5 : S256x64.ShapeCasts S256x64x1) (h6 : S256x64x1.Broadcasts S256x64x128)
    (j : Fin 256) (g : Fin 64) (l : Fin 128) :
    broadcastTo S256x64x128 (shapeCast S256x64x1 u h5) h6 (ix3 j g l) = u (ix2 j g) :=
  (broadcastTo_apply (shapeCast S256x64x1 u h5) h6 (ix3 j g l) (ix3 j g (0 : Fin 1)) (fun a => match a with
    | ⟨0, _⟩ => by show j.val = if (256 : Nat) = 1 then 0 else j.val; rw [if_neg (by decide)]
    | ⟨1, _⟩ => by show g.val = if (64 : Nat) = 1 then 0 else g.val; rw [if_neg (by decide)]
    | ⟨2, _⟩ => by show 0 = if (1 : Nat) = 1 then 0 else l.val; rw [if_pos rfl])).trans
  (shapeCast_apply u h5 (ix3 j g (0 : Fin 1)) (ix2 j g) (by
    rewrite [Shape.rowMajor_val_three, Shape.rowMajor_val_two]
    show j.val * 64 + g.val = (j.val * 64 + g.val) * 1 + 0; omega))

/-- The parameters transposed from [64, 256] (group, row) to [256, 64] (row, group). -/
theorem swap_at (p : S64x256.Idx → α) (h : S64x256.Transposes [1, 0] S256x64) (j : Fin 256) (g : Fin 64) :
    transpose S256x64 [1, 0] p h (ix2 j g) = p (ix2 g j) :=
  transpose_ix2_apply p h j g

/-- The scales: component 0 of the last axis of the [64, 256, 2] block, the unit axis dropped. -/
theorem scale_at (sb : S64x256x2.Idx → α) (h2 : S64x256x2.Slices ![0, 0, 0] S64x256x1) (h3 : S64x256x1.ShapeCasts S64x256)
    (g : Fin 64) (j : Fin 256) :
    shapeCast S64x256 (extractStridedSlice S64x256x1 ![0, 0, 0] sb h2) h3 (ix2 g j) = sb (ix3 g j (0 : Fin 2)) :=
  (shapeCast_apply _ h3 (ix2 g j) (ix3 g j (0 : Fin 1)) (by
    rewrite [Shape.rowMajor_val_three, Shape.rowMajor_val_two]
    show (g.val * 256 + j.val) * 1 + 0 = g.val * 256 + j.val; omega)).trans
  (extractStridedSlice_apply ![0, 0, 0] sb h2 (ix3 g j (0 : Fin 1)) (ix3 g j (0 : Fin 2)) (fun a => match a with
    | ⟨0, _⟩ => by show g.val = 0 + g.val; omega
    | ⟨1, _⟩ => by show j.val = 0 + j.val; omega
    | ⟨2, _⟩ => by show 0 = 0 + 0; omega))

/-- The zero points: component 1 of the last axis. -/
theorem zero_at (sb : S64x256x2.Idx → α) (h2 : S64x256x2.Slices ![0, 0, 1] S64x256x1) (h3 : S64x256x1.ShapeCasts S64x256)
    (g : Fin 64) (j : Fin 256) :
    shapeCast S64x256 (extractStridedSlice S64x256x1 ![0, 0, 1] sb h2) h3 (ix2 g j) = sb (ix3 g j (1 : Fin 2)) :=
  (shapeCast_apply _ h3 (ix2 g j) (ix3 g j (0 : Fin 1)) (by
    rewrite [Shape.rowMajor_val_three, Shape.rowMajor_val_two]
    show (g.val * 256 + j.val) * 1 + 0 = g.val * 256 + j.val; omega)).trans
  (extractStridedSlice_apply ![0, 0, 1] sb h2 (ix3 g j (0 : Fin 1)) (ix3 g j (1 : Fin 2)) (fun a => match a with
    | ⟨0, _⟩ => by show g.val = 0 + g.val; omega
    | ⟨1, _⟩ => by show j.val = 0 + j.val; omega
    | ⟨2, _⟩ => by show 1 = 1 + 0; omega))

end Layout

/-! ## The matrix product's operand indices

The product contracts the second axis of the activations [64, 8192] with the second axis of the weight tile
[256, 8192]: at result (r, j) and contraction position k it reads (r, k) on the left and (j, k) on the right. -/

theorem lhs_row (i : S64x256.Idx) (q : dot_S64x8192_S256x8192_S64x256_1_1_0_0_n_n.contr.Idx) :
    (dot_S64x8192_S256x8192_S64x256_1_1_0_0_n_n.lhsIdx i q 0).val = (i 0).val := by
  unfold DotDims.lhsIdx
  rw [dif_neg (show ¬(0 : Fin S64x8192.rank) ∈ dot_S64x8192_S256x8192_S64x256_1_1_0_0_n_n.lhsBatch by decide), dif_pos (show (0 : Fin S64x8192.rank) ∈ dot_S64x8192_S256x8192_S64x256_1_1_0_0_n_n.lhsNonContracting by decide)]
  rfl
theorem lhs_contr (i : S64x256.Idx) (q : dot_S64x8192_S256x8192_S64x256_1_1_0_0_n_n.contr.Idx) :
    (dot_S64x8192_S256x8192_S64x256_1_1_0_0_n_n.lhsIdx i q 1).val = (q ⟨0, by decide⟩).val :=
  dot_S64x8192_S256x8192_S64x256_1_1_0_0_n_n.lhsIdx_val_of_single rfl i q
theorem rhs_row (i : S64x256.Idx) (q : dot_S64x8192_S256x8192_S64x256_1_1_0_0_n_n.contr.Idx) :
    (dot_S64x8192_S256x8192_S64x256_1_1_0_0_n_n.rhsIdx i q 0).val = (i 1).val := by
  unfold DotDims.rhsIdx
  rw [dif_neg (show ¬(0 : Fin S256x8192.rank) ∈ dot_S64x8192_S256x8192_S64x256_1_1_0_0_n_n.rhsBatch by decide), dif_pos (show (0 : Fin S256x8192.rank) ∈ dot_S64x8192_S256x8192_S64x256_1_1_0_0_n_n.rhsNonContracting by decide)]
  rfl
theorem rhs_contr (i : S64x256.Idx) (q : dot_S64x8192_S256x8192_S64x256_1_1_0_0_n_n.contr.Idx) :
    (dot_S64x8192_S256x8192_S64x256_1_1_0_0_n_n.rhsIdx i q 1).val = (q ⟨0, by decide⟩).val :=
  dot_S64x8192_S256x8192_S64x256_1_1_0_0_n_n.rhsIdx_val_of_single rfl i q

/-! ## The body's stored value at an index -/

/-- WHAT THE BODY STORES at (r, j) of its [64, 256] output block: row `r` of the activations against the weight
    tile's row `j`, summed over all 8192 input features. The narrowing to bf16 of both operands is the identity on
    extended reals, and the product starts from a zero accumulator, so nothing but the sum remains. -/
theorem stored_at (sb : Vec Ideal S64x256x2 .f32) (qb : Vec Ideal S256x8192 .i32) (xb : Vec Ideal S64x8192 .f32)
    (r : Fin 64) (j : Fin 256) :
    k0_pay1 (F := Ideal) sb qb xb (ix2 r j) = ∑ k : Fin 8192, xb (ix2 r k) * tile sb qb j k := by
  unfold k0_pay1
  dsimp only
  refine (Ideal.matmul_constant_zero_apply dot_S64x8192_S256x8192_S64x256_1_1_0_0_n_n none _ _ (ix2 r j)).trans ?_
  rw [← Equiv.sum_comp (contrEquiv1 dot_S64x8192_S256x8192_S64x256_1_1_0_0_n_n 8192 rfl rfl).symm]
  refine Finset.sum_congr rfl fun k _ => ?_
  have hk := contrEquiv1_symm_val dot_S64x8192_S256x8192_S64x256_1_1_0_0_n_n 8192 rfl rfl k
  have el : dot_S64x8192_S256x8192_S64x256_1_1_0_0_n_n.lhsIdx (ix2 r j) ((contrEquiv1 dot_S64x8192_S256x8192_S64x256_1_1_0_0_n_n 8192 rfl rfl).symm k) = ix2 r k := funext fun a => Fin.ext (by
    match a with
    | ⟨0, _⟩ => exact lhs_row _ _
    | ⟨1, _⟩ => exact (lhs_contr _ _).trans hk)
  have er : dot_S64x8192_S256x8192_S64x256_1_1_0_0_n_n.rhsIdx (ix2 r j) ((contrEquiv1 dot_S64x8192_S256x8192_S64x256_1_1_0_0_n_n 8192 rfl rfl).symm k) = ix2 j k := funext fun a => Fin.ext (by
    match a with
    | ⟨0, _⟩ => exact rhs_row _ _
    | ⟨1, _⟩ => exact (rhs_contr _ _).trans hk)
  rw [el, er, truncf_apply, truncf_apply, flatten_at, addf_apply, mulf_apply, subf_apply, group_at, sitofp_apply,
    broadcast_apply, spread_at, spread_at, swap_at, swap_at, scale_at, zero_at]
  rfl

end Cert.Woq.Kern

end
-- ==== Proof.Blocks.lean ====
/-
  From what each grid point writes back to the whole output array.

  The grid has 32 points. Point `t` sees the whole activations, the codes of output features 256 t … 256 t + 255 and
  their parameters, and writes columns 256 t … 256 t + 255 of the [64, 8192] output. The block a point reads of each
  argument is the argument itself restricted to those rows or columns, so the value the body stores at (r, j) of its
  block — the sum over k of x(r, k) * tile(j, k) — is entry (r, 256 t + j) of `result` of the three arguments. The 32
  column blocks tile the output, each index lying in the block of point (column / 256), so after the run the whole
  output array is `result` of the arguments.
-/
import proofs.«163755_j15668040696350_1_alg».proof.Proof.Gen.KernelIdeal.Value
import proofs.«163755_j15668040696350_1_alg».proof.Proof.KernelDequant

noncomputable section

open scoped BigOperators

namespace Cert.Woq.Blocks

open Cert.KernelIdeal Cert.KernelIdeal.Gen Idealize.ShloMosaic Idealize.ShloMosaic.TcCoe Idealize.SL.Sem
open Idealize.ShloMosaic.ValueIdx Cert.Woq
open Idealize.ShloMosaic.Pipeline (Dat)

/-! ## One point, over plain blocks and arrays -/

/-- If a point's three blocks are the arguments restricted to output features `256 T … 256 T + 255`, then what the
    body stores at (r, j) is the result's entry at row `r` and output feature `256 T + j`. -/
theorem point_value_at (xb : Vec Ideal S64x8192 .f32) (qb : Vec Ideal S256x8192 .i32) (sb : Vec Ideal S64x256x2 .f32)
    (X : Vec Ideal S64x8192 .f32) (Q : Vec Ideal S8192x8192 .i32) (P : Vec Ideal S64x8192x2 .f32) (T : Nat) (hT : T < 32)
    (hx : ∀ (r : Fin 64) (k : Fin 8192), xb (ix2 r k) = X (ix2 r k))
    (hq : ∀ (j : Fin 256) (k : Fin 8192), qb (ix2 j k) = Q (ix2 (⟨T * 256 + j.val, by have := j.isLt; omega⟩ : Fin 8192) k))
    (hs : ∀ (g : Fin 64) (j : Fin 256) (e : Fin 2), sb (ix3 g j e) = P (ix3 g (⟨T * 256 + j.val, by have := j.isLt; omega⟩ : Fin 8192) e))
    (r : Fin 64) (j : Fin 256) :
    k0_pay1 (F := Ideal) sb qb xb (ix2 r j) = resultAt X Q P r ⟨T * 256 + j.val, by have := j.isLt; omega⟩ := by
  rw [Kern.stored_at]
  unfold resultAt
  refine Finset.sum_congr rfl fun k _ => ?_
  unfold Kern.tile weight
  rw [hx, hq, hs, hs]

/-- The same at any index of the block. -/
theorem point_value (xb : Vec Ideal S64x8192 .f32) (qb : Vec Ideal S256x8192 .i32) (sb : Vec Ideal S64x256x2 .f32)
    (X : Vec Ideal S64x8192 .f32) (Q : Vec Ideal S8192x8192 .i32) (P : Vec Ideal S64x8192x2 .f32) (T : Nat) (hT : T < 32)
    (hx : ∀ (r : Fin 64) (k : Fin 8192), xb (ix2 r k) = X (ix2 r k))
    (hq : ∀ (j : Fin 256) (k : Fin 8192), qb (ix2 j k) = Q (ix2 (⟨T * 256 + j.val, by have := j.isLt; omega⟩ : Fin 8192) k))
    (hs : ∀ (g : Fin 64) (j : Fin 256) (e : Fin 2), sb (ix3 g j e) = P (ix3 g (⟨T * 256 + j.val, by have := j.isLt; omega⟩ : Fin 8192) e))
    (y : S64x256.Idx) :
    k0_pay1 (F := Ideal) sb qb xb y
      = resultAt X Q P ⟨(y 0).val, (y 0).isLt⟩ ⟨T * 256 + (y 1).val, by have : (y 1).val < 256 := (y 1).isLt; omega⟩ := by
  obtain ⟨r, j, rfl⟩ : ∃ (r : Fin 64) (j : Fin 256), y = ix2 r j := ⟨y 0, y 1, eq_ix2 y⟩
  exact point_value_at xb qb sb X Q P T hT hx hq hs r j

/-! ## The windows' blocks -/

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The block indices of the four windows at every grid point: the activations' block is always the whole array;
    the codes move along their first axis, the parameters and the output along their second, one block per point. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0
    ∧ win0_3.index t (0 : Fin 2) = 0 ∧ win0_3.index t (1 : Fin 2) = t.val :=
  (by decide +kernel : ∀ t : Fin grid0.N, _)

/-- WHAT POINT `t` WRITES BACK is block `t` of `result` of the argument arrays as the region finds them. -/
theorem flushed_eq (c : Dev nD) (t : Fin cfg0.N) :
    (dats m 0 c).flushed 3 t
      = ((cfg0.win 3).blk t).view.read (Elt Ideal) (result (V m c main_arg0) (V m c main_arg1) (V m c main_arg2)) := by
  rw [Cert.KernelIdeal.Value.flushed3]
  unfold out0_3
  rw [View.canon_unit_zero origin2]
  simp only [View.ld_unit_zero (S := S64x256x2) origin3, View.ld_unit_zero (S := S256x8192) origin2,
    View.ld_unit_zero (S := S64x8192) origin2]
  obtain ⟨e00, e01, e10, e11, e20, e21, e22, e30, e31⟩ := block_indices t
  have hT : t.val < 32 := lt_of_lt_of_eq t.isLt N_0
  funext y
  show k0_pay1 (F := Ideal) (iblk m c 2 t) (iblk m c 1 t) (iblk m c 0 t) y
    = result (V m c main_arg0) (V m c main_arg1) (V m c main_arg2) (((cfg0.win 3).blk t).view.emb y)
  have hy0 : (y 0).val < 64 := (y 0).isLt
  have hy1 : (y 1).val < 256 := (y 1).isLt
  refine (point_value (iblk m c 0 t) (iblk m c 1 t) (iblk m c 2 t) (V m c main_arg0) (V m c main_arg1) (V m c main_arg2)
    t.val hT ?_ ?_ ?_ y).trans (result_of_coords _ _ _ _ _ _ ?_ ?_).symm
  · intro r k
    show V m c main_arg0 (((cfg0.win 0).blk t).view.emb (ix2 r k)) = V m c main_arg0 (ix2 r k)
    refine congrArg _ ?_
    funext a; apply Fin.ext
    have hr := r.isLt; have hk := k.isLt
    match a with
    | ⟨0, _⟩ => show win0_0.index t (0 : Fin 2) * 64 + 1 * r.val = r.val; omega
    | ⟨1, _⟩ => show win0_0.index t (1 : Fin 2) * 8192 + 1 * k.val = k.val; omega
  · intro j k
    show V m c main_arg1 (((cfg0.win 1).blk t).view.emb (ix2 j k)) = V m c main_arg1 (ix2 _ k)
    refine congrArg _ ?_
    funext a; apply Fin.ext
    have hj := j.isLt; have hk := k.isLt
    match a with
    | ⟨0, _⟩ => show win0_1.index t (0 : Fin 2) * 256 + 1 * j.val = t.val * 256 + j.val; omega
    | ⟨1, _⟩ => show win0_1.index t (1 : Fin 2) * 8192 + 1 * k.val = k.val; omega
  · intro g j e
    show V m c main_arg2 (((cfg0.win 2).blk t).view.emb (ix3 g j e)) = V m c main_arg2 (ix3 g _ e)
    refine congrArg _ ?_
    funext a; apply Fin.ext
    have hg := g.isLt; have hj := j.isLt; have he := e.isLt
    match a with
    | ⟨0, _⟩ => show win0_2.index t (0 : Fin 3) * 64 + 1 * g.val = g.val; omega
    | ⟨1, _⟩ => show win0_2.index t (1 : Fin 3) * 256 + 1 * j.val = t.val * 256 + j.val; omega
    | ⟨2, _⟩ => show win0_2.index t (2 : Fin 3) * 2 + 1 * e.val = e.val; omega
  · show win0_3.index t (0 : Fin 2) * 64 + 1 * (y 0).val = (y 0).val; omega
  · show win0_3.index t (1 : Fin 2) * 256 + 1 * (y 1).val = t.val * 256 + (y 1).val; omega

/-! ## The cover -/

/-- An index of the output array is in point `t`'s block iff each coordinate is in the block's range on its axis. -/
theorem mem_block (t : Fin cfg0.N) (i : S64x8192.Idx) :
    i ∈ ((cfg0.win 3).blk t).view.set ↔ ∀ a : Fin 2, win0_3.index t a * S64x256.size a ≤ (i a).val
      ∧ (i a).val < win0_3.index t a * S64x256.size a + S64x256.size a := by
  show i ∈ ((View.whole main_v0).slice (win0_3.rect t)).set ↔ _
  rw [View.set_slice_whole, Rect.mem_set_unit]
  exact Iff.rfl

/-- Every index of the output lies in the block of the point numbered by its column over 256. -/
theorem covered (i : S64x8192.Idx) :
    ∃ t : Fin cfg0.N, (cfg0.win 3).flush t = true ∧ i ∈ ((cfg0.win 3).blk t).view.set := by
  have hi0 : (i 0).val < 64 := (i 0).isLt
  have hi1 : (i 1).val < 8192 := (i 1).isLt
  obtain ⟨t, ht⟩ : ∃ t : Fin cfg0.N, t.val = (i 1).val / 256 :=
    ⟨⟨(i 1).val / 256, lt_of_lt_of_eq (show (i 1).val / 256 < 32 by omega) N_0.symm⟩, rfl⟩
  obtain ⟨-, -, -, -, -, -, -, e30, e31⟩ := block_indices t
  refine ⟨t, flush0_3 t, ?_⟩
  rw [mem_block]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 256 ≤ (i 1).val ∧ (i 1).val < win0_3.index t (1 : Fin 2) * 256 + 256; omega

/-! ## The array after the run, and the run -/

/-- THE OUTPUT ARRAY after the run is `result` of the three argument arrays. -/
theorem final (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run with its result named: every weakly fair execution ends with the output array at `result` of the
    arguments and the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Woq.Blocks

end
-- ==== Proof.RefDequant.lean ====
/-
  The reference computes the function of Dequant.lean.

  The reference reshapes the codes to [8192, 64, 128] (output feature, group, position in group), slices the
  scales and the zero points out of the [64, 8192, 2] array, transposes each to [8192, 64], broadcasts them along
  the 128 positions of a group, forms (code - 8) * scale + zero, reshapes back to [8192, 8192], transposes, and
  contracts the activations' second axis with the first axis of that transpose. Read at an index, every layout
  step only renames coordinates: position (n, k) of the reshaped weights is (n, k / 128, k % 128) of the grouped
  ones, whose scale sits at (k / 128, n, 0) and zero point at (k / 128, n, 1) of the parameter array. So the
  contraction's k-th term is x(r, k) * weight(n, k), which is the definition of `resultAt`.
-/
import proofs.«163755_j15668040696350_1_alg».proof.Proof.Gen.ReferenceIdeal.Read
import proofs.«163755_j15668040696350_1_alg».proof.Proof.Dequant

noncomputable section

open scoped BigOperators

namespace Cert.Woq.Ref

open Cert.ReferenceIdeal Cert.ReferenceIdeal.Read Idealize.ShloMosaic Idealize.ShloMosaic.ValueIdx Cert.Woq

variable (q : (⟨S8192x8192, .i32⟩ : BufTy).Contents (Elt Ideal)) (sz : (⟨S64x8192x2, .f32⟩ : BufTy).Contents (Elt Ideal))

/-! ## The codes -/

/-- The grouped codes at (n, k / 128, k % 128) are the codes at (n, k): the two positions have one row-major rank. -/
theorem codes_at (n k : Fin 8192) : val_main_v0 (F := Ideal) q (ix3 n (grp k) (lane k)) = q (ix2 n k) := by
  refine (val_main_v0_apply q _).trans (congrArg q ?_)
  funext a; apply Fin.ext
  have hn := n.isLt; have hk := k.isLt
  match a with
  | ⟨0, _⟩ => show ((n.val * 64 + k.val / 128) * 128 + k.val % 128) / 8192 = n.val; omega
  | ⟨1, _⟩ => show ((n.val * 64 + k.val / 128) * 128 + k.val % 128) % 8192 = k.val; omega

/-! ## The scales and the zero points: slice, drop the unit axis, transpose, add a unit axis, broadcast -/

theorem scale_slice (g : Fin 64) (n : Fin 8192) : val_main_v2 (F := Ideal) sz (ix3 g n (0 : Fin 1)) = sz (ix3 g n (0 : Fin 2)) :=
  (val_main_v2_apply sz _).trans (congrArg sz (funext fun a => match a with | ⟨0, _⟩ => rfl | ⟨1, _⟩ => rfl | ⟨2, _⟩ => rfl))

theorem zero_slice (g : Fin 64) (n : Fin 8192) : val_main_v6 (F := Ideal) sz (ix3 g n (0 : Fin 1)) = sz (ix3 g n (1 : Fin 2)) :=
  (val_main_v6_apply sz _).trans (congrArg sz (funext fun a => match a with | ⟨0, _⟩ => rfl | ⟨1, _⟩ => rfl | ⟨2, _⟩ => rfl))

theorem scale_squeeze (g : Fin 64) (n : Fin 8192) : val_main_v3 (F := Ideal) sz (ix2 g n) = val_main_v2 (F := Ideal) sz (ix3 g n (0 : Fin 1)) := by
  refine (val_main_v3_apply sz _).trans (congrArg _ ?_)
  funext a; apply Fin.ext
  have hg := g.isLt; have hn := n.isLt
  match a with
  | ⟨0, _⟩ => show (g.val * 8192 + n.val) / 8192 = g.val; omega
  | ⟨1, _⟩ => show (g.val * 8192 + n.val) / 1 % 8192 = n.val; omega
  | ⟨2, _⟩ => rfl

theorem zero_squeeze (g : Fin 64) (n : Fin 8192) : val_main_v7 (F := Ideal) sz (ix2 g n) = val_main_v6 (F := Ideal) sz (ix3 g n (0 : Fin 1)) := by
  refine (val_main_v7_apply sz _).trans (congrArg _ ?_)
  funext a; apply Fin.ext
  have hg := g.isLt; have hn := n.isLt
  match a with
  | ⟨0, _⟩ => show (g.val * 8192 + n.val) / 8192 = g.val; omega
  | ⟨1, _⟩ => show (g.val * 8192 + n.val) / 1 % 8192 = n.val; omega
  | ⟨2, _⟩ => rfl

theorem scale_transpose (n : Fin 8192) (g : Fin 64) : val_main_v4 (F := Ideal) sz (ix2 n g) = val_main_v3 (F := Ideal) sz (ix2 g n) :=
  (val_main_v4_apply sz _).trans (congrArg _ (funext fun a => match a with | ⟨0, _⟩ => rfl | ⟨1, _⟩ => rfl))

theorem zero_transpose (n : Fin 8192) (g : Fin 64) : val_main_v8 (F := Ideal) sz (ix2 n g) = val_main_v7 (F := Ideal) sz (ix2 g n) :=
  (val_main_v8_apply sz _).trans (congrArg _ (funext fun a => match a with | ⟨0, _⟩ => rfl | ⟨1, _⟩ => rfl))

theorem scale_column (n : Fin 8192) (g : Fin 64) : val_main_v5 (F := Ideal) sz (ix3 n g (0 : Fin 1)) = val_main_v4 (F := Ideal) sz (ix2 n g) :=
  (val_main_v5_apply sz _).trans (congrArg _ (funext fun a => match a with | ⟨0, _⟩ => rfl | ⟨1, _⟩ => rfl))

theorem zero_column (n : Fin 8192) (g : Fin 64) : val_main_v9 (F := Ideal) sz (ix3 n g (0 : Fin 1)) = val_main_v8 (F := Ideal) sz (ix2 n g) :=
  (val_main_v9_apply sz _).trans (congrArg _ (funext fun a => match a with | ⟨0, _⟩ => rfl | ⟨1, _⟩ => rfl))

theorem scale_spread (n : Fin 8192) (g : Fin 64) (l : Fin 128) : val_main_v12 (F := Ideal) sz (ix3 n g l) = val_main_v5 (F := Ideal) sz (ix3 n g (0 : Fin 1)) :=
  (val_main_v12_apply sz _).trans (congrArg _ (funext fun a => match a with | ⟨0, _⟩ => rfl | ⟨1, _⟩ => rfl | ⟨2, _⟩ => rfl))

theorem zero_spread (n : Fin 8192) (g : Fin 64) (l : Fin 128) : val_main_v14 (F := Ideal) sz (ix3 n g l) = val_main_v9 (F := Ideal) sz (ix3 n g (0 : Fin 1)) :=
  (val_main_v14_apply sz _).trans (congrArg _ (funext fun a => match a with | ⟨0, _⟩ => rfl | ⟨1, _⟩ => rfl | ⟨2, _⟩ => rfl))

/-- The scale the reference multiplies position (n, g, l) by is the parameter array's entry (g, n, 0). -/
theorem scale_at (n : Fin 8192) (g : Fin 64) (l : Fin 128) : val_main_v12 (F := Ideal) sz (ix3 n g l) = sz (ix3 g n (0 : Fin 2)) := by
  rw [scale_spread, scale_column, scale_transpose, scale_squeeze, scale_slice]

/-- The zero point it adds there is the entry (g, n, 1). -/
theorem zero_at (n : Fin 8192) (g : Fin 64) (l : Fin 128) : val_main_v14 (F := Ideal) sz (ix3 n g l) = sz (ix3 g n (1 : Fin 2)) := by
  rw [zero_spread, zero_column, zero_transpose, zero_squeeze, zero_slice]

/-! ## The dequantized weights, regrouped and transposed -/

/-- The grouped weights at (n, k / 128, k % 128) are the weight of output feature `n` and input feature `k`. -/
theorem grouped_at (n k : Fin 8192) : val_main_v15 (F := Ideal) q sz (ix3 n (grp k) (lane k)) = weight q sz n k := by
  rw [val_main_v15_apply, val_main_v13_apply, val_main_v11_apply, val_main_v1_apply, codes_at, val_main_v10_apply,
    val_main_cst_apply, scale_at, zero_at]
  rfl

theorem flat_at (n k : Fin 8192) : val_main_v16 (F := Ideal) q sz (ix2 n k) = val_main_v15 (F := Ideal) q sz (ix3 n (grp k) (lane k)) := by
  refine (val_main_v16_apply q sz _).trans (congrArg _ ?_)
  funext a; apply Fin.ext
  have hn := n.isLt; have hk := k.isLt
  match a with
  | ⟨0, _⟩ => show (n.val * 8192 + k.val) / 8192 = n.val; omega
  | ⟨1, _⟩ => show (n.val * 8192 + k.val) / 128 % 64 = k.val / 128; omega
  | ⟨2, _⟩ => show (n.val * 8192 + k.val) % 128 = k.val % 128; omega

/-- The transposed weight matrix the reference contracts with: entry (k, n) is the weight at (n, k). -/
theorem transposed_at (k n : Fin 8192) : val_main_v17 (F := Ideal) q sz (ix2 k n) = weight q sz n k := by
  refine (val_main_v17_apply q sz _).trans ?_
  have e : idx_main_v17 (ix2 k n) = ix2 n k := funext fun a => match a with | ⟨0, _⟩ => rfl | ⟨1, _⟩ => rfl
  rw [e, flat_at, grouped_at]

/-! ## The contraction -/

/-- THE REFERENCE'S RESULT is `result` of its three arguments. -/
theorem value_eq (x : (⟨S64x8192, .f32⟩ : BufTy).Contents (Elt Ideal)) :
    val_main_v18 (F := Ideal) x q sz = result x q sz := by
  funext i
  obtain ⟨r, n, rfl⟩ : ∃ (r : Fin 64) (n : Fin 8192), i = ix2 r n := ⟨i 0, i 1, eq_ix2 i⟩
  rw [val_main_v18_apply, result_ix2]
  unfold resultAt
  refine Finset.sum_congr rfl fun k _ => ?_
  have el : lidx_main_v18 (ix2 r n) k = ix2 r k := funext fun a => match a with | ⟨0, _⟩ => rfl | ⟨1, _⟩ => rfl
  have er : ridx_main_v18 (ix2 r n) k = ix2 k n := funext fun a => match a with | ⟨0, _⟩ => rfl | ⟨1, _⟩ => rfl
  rw [el, er, transposed_at]

end Cert.Woq.Ref

end
-- ==== Proof.lean ====
/-
  A weight-only quantized linear layer: activations [64, 8192] against an [8192, 8192] weight matrix stored as 4-bit
  codes with one scale and one zero point per group of 128 input features.

  Both programs compute, on the extended reals,
      out(r, n) = sum over k of x(r, k) * ((code(n, k) - 8) * scale(k / 128, n) + zero(k / 128, n)).
  The kernel does it 256 output features at a time: each of its 32 grid points dequantizes one [256, 8192] tile and
  multiplies the activations by the tile's transpose into a zero accumulator; its narrowing of both operands to bf16 is
  the identity on extended reals. The reference dequantizes the whole matrix, transposes it, and contracts once. The two
  sums run over the same 8192 input features with the same factors in the same order, so no law beyond renaming
  indices is used, and the precondition (finite inputs) is never opened: the equation holds at infinite entries too.

  The pieces: Proof/Dequant.lean states the function; Proof/RefDequant.lean shows the reference's result is that
  function; Proof/KernelDequant.lean reads what the kernel body stores at an index; Proof/Blocks.lean passes from the
  32 column blocks to the whole output array. The three frames are the generated ones (the reference's is its generated
  run with the result dropped); the idealization rewrote nothing, so `preserves` is trivial.
-/
import proofs.«163755_j15668040696350_1_alg».proof.Defs
import proofs.«163755_j15668040696350_1_alg».proof.Proof.Gen.Kernel
import proofs.«163755_j15668040696350_1_alg».proof.Proof.Gen.Kernel.Frame
import proofs.«163755_j15668040696350_1_alg».proof.Proof.Gen.KernelIdeal
import proofs.«163755_j15668040696350_1_alg».proof.Proof.Gen.KernelIdeal.Frame
import proofs.«163755_j15668040696350_1_alg».proof.Proof.Gen.KernelIdeal.Value
import proofs.«163755_j15668040696350_1_alg».proof.Proof.Gen.ReferenceIdeal
import proofs.«163755_j15668040696350_1_alg».proof.Proof.Gen.ReferenceIdeal.Run
import proofs.«163755_j15668040696350_1_alg».proof.Proof.Gen.ReferenceIdeal.Read
import proofs.«163755_j15668040696350_1_alg».proof.Proof.Gen.Pre_finite_inputs
import proofs.«163755_j15668040696350_1_alg».proof.Proof.Blocks
import proofs.«163755_j15668040696350_1_alg».proof.Proof.RefDequant
import Idealize.ShloMosaic.Adequacy
import Idealize.ShloMosaic.Init

noncomputable section

namespace Cert.Proof

open Idealize.ShloMosaic Idealize.ShloMosaic.TcCoe Idealize.SL.Sem

/-- The kernel as printed terminates without a fault and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's output array and the reference's result are both
    `Cert.Woq.result` of those arguments. -/
theorem algebraic : Cert.algebraic_KernelIdeal_ReferenceIdeal := by
  intro m ρ m' ρ' _ hagree
  refine ⟨_, Cert.Woq.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Woq.Ref.value_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
